-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S8192x2048x2 : Shape := ⟨3, ![8192, 2048, 2]⟩
abbrev S8192x2048x1 : Shape := ⟨3, ![8192, 2048, 1]⟩
abbrev S8192x2048 : Shape := ⟨2, ![8192, 2048]⟩
abbrev S256x2048 : Shape := ⟨2, ![256, 2048]⟩
abbrev S256x4096 : Shape := ⟨2, ![256, 4096]⟩

abbrev nBuf : Space → Nat
  | .hbm => 7
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x2048x2, .f32⟩
  | .hbm, ⟨2, _⟩ => ⟨S8192x2048x1, .f32⟩
  | .hbm, ⟨3, _⟩ => ⟨S8192x2048, .f32⟩
  | .hbm, ⟨4, _⟩ => ⟨S8192x2048x1, .f32⟩
  | .hbm, ⟨5, _⟩ => ⟨S8192x2048, .f32⟩
  | .hbm, ⟨6, _⟩ => ⟨S8192x4096, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x4096, .f32⟩
  | .local _ .vmem, ⟨5, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8192x4096_S8192x2048x2 : S8192x4096.ShapeCasts S8192x2048x2
  slices_S8192x2048x2_S8192x2048x1_0_0_0 : S8192x2048x2.Slices ![0, 0, 0] S8192x2048x1
  shapeCasts_S8192x2048x1_S8192x2048 : S8192x2048x1.ShapeCasts S8192x2048
  slices_S8192x2048x2_S8192x2048x1_0_0_1 : S8192x2048x2.Slices ![0, 0, 1] S8192x2048x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x4096_S256x2048_0_0 : ∀ a, (![0, 0] : Fin 2 → Nat) a + S256x2048.size a ≤ S256x4096.size a
  inb_S256x4096_S256x2048_0_2048 : ∀ a, (![0, 2048] : Fin 2 → Nat) a + S256x2048.size a ≤ S256x4096.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)

variable [Facts₀]

abbrev win0_0 : Pipeline.Window sig grid0 :=
  Pipeline.Window.ofSpec (Memref.whole main_v2) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192x2048x2 : Shape := ⟨3, ![8192, 2048, 2]⟩
abbrev S8192x2048x1 : Shape := ⟨3, ![8192, 2048, 1]⟩
abbrev S8192x2048 : Shape := ⟨2, ![8192, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048x2, .f32⟩
  | .hbm, ⟨2, _⟩ => ⟨S8192x2048x1, .f32⟩
  | .hbm, ⟨3, _⟩ => ⟨S8192x2048, .f32⟩
  | .hbm, ⟨4, _⟩ => ⟨S8192x2048x1, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  shapeCasts_S8192x4096_S8192x2048x2 : S8192x4096.ShapeCasts S8192x2048x2
  slices_S8192x2048x2_S8192x2048x1_0_0_0 : S8192x2048x2.Slices ![0, 0, 0] S8192x2048x1
  shapeCasts_S8192x2048x1_S8192x2048 : S8192x2048x1.ShapeCasts S8192x2048
  slices_S8192x2048x2_S8192x2048x1_0_0_1 : S8192x2048x2.Slices ![0, 0, 1] S8192x2048x1
  bcast_S_S8192x2048 : S_.BroadcastsInDim S8192x2048 (![] : Fin 0 → Fin S8192x2048.rank)
  concatenates_S8192x2048_S8192x2048_S8192x4096_d1 : Shape.Concatenates [S8192x2048, S8192x2048] S8192x4096 1

variable [Facts₀]

class Facts : Prop extends Facts₀ where

variable [Facts]
-- ==== Proof.HaarSpec.lean ====
/-
  One level of the Haar wavelet transform along the rows of a matrix, as a function of the matrix's even and odd
  columns.

  For a matrix of `R` rows and 4096 columns write `e` for its even columns and `o` for its odd columns, each
  `R × 2048`. The transform's row `r` is the 2048 scaled sums `(e r k + o r k) · s` followed by the 2048 scaled
  differences `(e r k − o r k) · s`, where `s` is the single-precision number nearest `1/√2`. `haar e o` is that
  `R × 4096` array, index by index: column `c` reads column `c mod 2048` of `e` and `o`, added when `c < 2048`
  and subtracted otherwise.

  `pick p x` names the even (`p = 0`) and the odd (`p = 1`) columns of a matrix `x`.

  Three readings of it are proved here, over any float instance, with no program in sight:
  * `canon_eq_haar` — two stores, the sums through the left half of a buffer and the differences through the right
    half, leave `haar` in the buffer;
  * `haar_rows` — the transform of a band of rows of `e` and `o` is that band of rows of the transform;
  * `concat_eq_haar` — concatenating the scaled sums and the scaled differences along the columns is `haar`.
-/
import Idealize.ShloMosaic.Lib.Pipeline.Value
import Idealize.ShloMosaic.Lib.ValueIdx

noncomputable section

namespace Cert.Haar

open Idealize.ShloMosaic Idealize.ShloMosaic.ValueIdx

variable {F : FTy → Type} [FloatOps F]

/-- `R` rows of 2048 columns: the even (or the odd) columns. -/
abbrev Half (R : Nat) : Shape := ⟨2, ![R, 2048]⟩
/-- `R` rows of 4096 columns: the matrix, and its transform. -/
abbrev Full (R : Nat) : Shape := ⟨2, ![R, 4096]⟩

/-- The filter coefficient: the single-precision number nearest `1/√2`, by its bit pattern. -/
abbrev coeff : F .f32 := FloatOps.ofBits .f32 0x3F3504F3#32

/-- Column `c` of the transform reads column `c mod 2048` of the even and odd halves. -/
abbrev src {R : Nat} (i : (Full R).Idx) : (Half R).Idx :=
  ix2 (n0 := R) (n1 := 2048) (i 0) ⟨(i 1).val % 2048, Nat.mod_lt _ (by norm_num)⟩

/-- The transform: scaled sums in the left 2048 columns, scaled differences in the right 2048. -/
def haar {R : Nat} (e o : (Half R).Idx → F .f32) : (Full R).Idx → F .f32 := fun i =>
  FloatOps.mulf (if (i 1).val < 2048 then FloatOps.addf (e (src i)) (o (src i)) else FloatOps.subf (e (src i)) (o (src i))) coeff

/-- An index of the half-width array is determined by its two coordinates. -/
theorem half_ext {R : Nat} {k k' : (Half R).Idx} (h0 : (k 0).val = (k' 0).val) (h1 : (k 1).val = (k' 1).val) : k = k' :=
  funext fun a => Fin.ext <| match a with | ⟨0, _⟩ => h0 | ⟨1, _⟩ => h1

/-- In the left half the transform is the scaled sum at the same row and column. -/
theorem haar_left {R : Nat} (e o : (Half R).Idx → F .f32) (i : (Full R).Idx) (k : (Half R).Idx)
    (h0 : (k 0).val = (i 0).val) (h1 : (k 1).val = (i 1).val) :
    haar e o i = FloatOps.mulf (FloatOps.addf (e k) (o k)) coeff := by
  have hk : (k 1).val < 2048 := idx2_lt1 k
  have hs : src i = k := half_ext h0.symm (by show (i 1).val % 2048 = (k 1).val; omega)
  unfold haar
  rw [if_pos (by omega), hs]

/-- In the right half it is the scaled difference at the same row, 2048 columns to the left. -/
theorem haar_right {R : Nat} (e o : (Half R).Idx → F .f32) (i : (Full R).Idx) (k : (Half R).Idx)
    (h0 : (k 0).val = (i 0).val) (h1 : (k 1).val + 2048 = (i 1).val) :
    haar e o i = FloatOps.mulf (FloatOps.subf (e k) (o k)) coeff := by
  have hk : (k 1).val < 2048 := idx2_lt1 k
  have hs : src i = k := half_ext h0.symm (by show (i 1).val % 2048 = (k 1).val; omega)
  unfold haar
  rw [if_neg (by omega), hs]

/-! ## The even and the odd columns -/

/-- `R` rows of 2048 pairs of neighbouring columns. -/
abbrev Pairs (R : Nat) : Shape := ⟨3, ![R, 2048, 2]⟩
/-- One member of every pair. -/
abbrev Column (R : Nat) : Shape := ⟨3, ![R, 2048, 1]⟩

/-- Member `p` of every pair of neighbouring columns of `x` (`p = 0`: the even columns, `p = 1`: the odd ones): the
    matrix viewed as pairs, member `p` sliced out, the unit axis dropped. Both programs compute it with these same
    three operations, so nothing here or later looks inside it. -/
def pick {α : Type} {R : Nat} (p : Nat) (x : (Full R).Idx → α) (h1 : (Full R).ShapeCasts (Pairs R))
    (h2 : (Pairs R).Slices ![0, 0, p] (Column R)) (h3 : (Column R).ShapeCasts (Half R)) : (Half R).Idx → α :=
  shapeCast (Half R) (extractStridedSlice (Column R) ![0, 0, p] (shapeCast (Pairs R) x h1) h2) h3

/-! ## Two stores, one per half of the buffer -/

/-- A buffer of `R × 4096` into whose left half the scaled sums were stored and into whose right half the scaled
    differences were stored holds the transform: every index lies in exactly one half, and each half's payload is
    the transform there. -/
theorem canon_eq_haar {R : Nat} (e o : (Half R).Idx → F .f32) (ps pd : (Half R).Idx → F .f32)
    (hs : ∀ k, ps k = FloatOps.mulf (FloatOps.addf (e k) (o k)) coeff)
    (hd : ∀ k, pd k = FloatOps.mulf (FloatOps.subf (e k) (o k)) coeff)
    (inbL : ∀ a, (![0, 0] : Fin 2 → Nat) a + (Half R).size a ≤ (Full R).size a)
    (inbR : ∀ a, (![0, 2048] : Fin 2 → Nat) a + (Half R).size a ≤ (Full R).size a) :
    View.canon (Val := Elt F) (e := .f32)
      [⟨Rect.unit (s := Full R) ![0, 2048] (Half R).size inbR, pd⟩, ⟨Rect.unit (s := Full R) ![0, 0] (Half R).size inbL, ps⟩]
      = haar e o := by
  funext y
  refine View.canon_apply_of_pieces (Val := Elt F) (e := .f32) (haar e o) _ ?_ y ?_
  · intro p hp x
    simp only [List.mem_cons, List.not_mem_nil, or_false] at hp
    rcases hp with rfl | rfl
    · show pd x = haar e o ((Rect.unit (s := Full R) ![0, 2048] (Half R).size inbR).emb x)
      rw [hd]
      refine (haar_right e o _ x ?_ ?_).symm
      · show (x 0).val = 0 + 1 * (x 0).val; omega
      · show (x 1).val + 2048 = 2048 + 1 * (x 1).val; omega
    · show ps x = haar e o ((Rect.unit (s := Full R) ![0, 0] (Half R).size inbL).emb x)
      rw [hs]
      refine (haar_left e o _ x ?_ ?_).symm
      · show (x 0).val = 0 + 1 * (x 0).val; omega
      · show (x 1).val = 0 + 1 * (x 1).val; omega
  · have h0 : (y 0).val < R := idx2_lt0 y
    have h1 : (y 1).val < 4096 := idx2_lt1 y
    by_cases hlt : (y 1).val < 2048
    · refine ⟨⟨Rect.unit (s := Full R) ![0, 0] (Half R).size inbL, ps⟩, by simp, ?_⟩
      rw [Rect.mem_set_unit]
      intro a
      match a with
      | ⟨0, _⟩ => show 0 ≤ (y 0).val ∧ (y 0).val < 0 + R; omega
      | ⟨1, _⟩ => show 0 ≤ (y 1).val ∧ (y 1).val < 0 + 2048; omega
    · refine ⟨⟨Rect.unit (s := Full R) ![0, 2048] (Half R).size inbR, pd⟩, by simp, ?_⟩
      rw [Rect.mem_set_unit]
      intro a
      match a with
      | ⟨0, _⟩ => show 0 ≤ (y 0).val ∧ (y 0).val < 0 + R; omega
      | ⟨1, _⟩ => show 2048 ≤ (y 1).val ∧ (y 1).val < 2048 + 2048; omega

/-! ## A band of rows -/

/-- The transform acts on each row by itself: if `xe` and `xo` are the rows `b, b + 1, …` of `e` and `o`, then
    the transform of `xe`, `xo` at row `r` is the transform of `e`, `o` at row `b + r`, column by column. -/
theorem haar_rows {R R' : Nat} (e o : (Half R).Idx → F .f32) (xe xo : (Half R').Idx → F .f32) (b : Nat)
    (he : ∀ (k : (Half R').Idx) (k' : (Half R).Idx), (k' 0).val = b + (k 0).val → (k' 1).val = (k 1).val → xe k = e k')
    (ho : ∀ (k : (Half R').Idx) (k' : (Half R).Idx), (k' 0).val = b + (k 0).val → (k' 1).val = (k 1).val → xo k = o k')
    (j : (Full R').Idx) (i : (Full R).Idx) (h0 : (i 0).val = b + (j 0).val) (h1 : (i 1).val = (j 1).val) :
    haar xe xo j = haar e o i := by
  unfold haar
  rw [he (src j) (src i) h0 (by show (i 1).val % 2048 = (j 1).val % 2048; rw [h1]),
    ho (src j) (src i) h0 (by show (i 1).val % 2048 = (j 1).val % 2048; rw [h1]), h1]

/-! ## The concatenation of the two halves -/

/-- The scaled sums and the scaled differences, each `R × 2048`, set side by side along the columns are the
    transform (`sc` is any array that holds the coefficient everywhere: a broadcast of it). -/
theorem concat_eq_haar {R : Nat} (e o sc sc' : (Half R).Idx → F .f32) (hsc : ∀ k, sc k = coeff) (hsc' : ∀ k, sc' k = coeff)
    (h : Shape.Concatenates [Half R, Half R] (Full R) 1) :
    concatenate (Full R) 1 [⟨Half R, mulf (addf e o) sc⟩, ⟨Half R, mulf (subf e o) sc'⟩] h = haar e o := by
  funext i
  have h1 : (i 1).val < 4096 := idx2_lt1 i
  by_cases hlt : (i 1).val < 2048
  · let k : (Half R).Idx := ix2 (n0 := R) (n1 := 2048) (i 0) ⟨(i 1).val, hlt⟩
    refine (concatenate_pair_apply_left (1 : Fin (Full R).rank) _ _ h i rfl k (fun b => ?_)).trans ?_
    · match b with
      | ⟨0, _⟩ => rfl
      | ⟨1, _⟩ => rfl
    · show FloatOps.mulf (FloatOps.addf (e k) (o k)) (sc k) = _
      rw [hsc]
      exact (haar_left e o i k rfl rfl).symm
  · let k : (Half R).Idx := ix2 (n0 := R) (n1 := 2048) (i 0) ⟨(i 1).val - 2048, by omega⟩
    refine (concatenate_pair_apply_right (1 : Fin (Full R).rank) _ _ h i rfl rfl k (fun b hb => ?_) ?_).trans ?_
    · match b with
      | ⟨0, _⟩ => rfl
      | ⟨1, _⟩ => exact absurd rfl hb
    · show ((i 1).val - 2048) + 2048 = (i 1).val; omega
    · show FloatOps.mulf (FloatOps.subf (e k) (o k)) (sc' k) = _
      rw [hsc']
      exact (haar_right e o i k rfl (by show ((i 1).val - 2048) + 2048 = (i 1).val; omega)).symm

end Cert.Haar

end
-- ==== Proof.KernelValue.lean ====
/-
  The kernel's result array. The grid has 32 points; point `t` is given rows `256·t … 256·t + 255` of the even
  columns and of the odd columns (each a 256 × 2048 block) and writes back rows `256·t … 256·t + 255` of the result
  (a 256 × 4096 block). Its body stores the scaled sums of the two blocks in the left half of the output block and
  the scaled differences in the right half, which is the Haar transform of the two blocks (`body_eq`); the
  transform acts row by row, so that block is the same rows of the transform of the whole even and odd columns
  (`flushed_eq`); the 32 blocks cover all 8192 rows (`cover`), so the array ends holding the transform (`final`).
  The even and odd columns themselves are what the three host operations before the call make of the argument
  (`evens_eq`, `odds_eq`).
-/
import proofs.«409918_j14396730376549_3_alg».proof.Proof.Gen.KernelIdeal.Value
import proofs.«409918_j14396730376549_3_alg».proof.Proof.HaarSpec
import Idealize.ShloMosaic.Lib.StableHlo.Run

noncomputable section

namespace Cert.KernelIdeal.Hand

open Cert.KernelIdeal Cert.KernelIdeal.Gen Cert.KernelIdeal.Value Cert.Haar
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-! ## The body on one pair of blocks -/

/-- What the body leaves in the output block: the transform of the even block `x0` and the odd block `x1`. -/
theorem body_eq (x0 x1 : Vec F S256x2048 .f32) : out0_2 x0 x1 = haar (R := 256) x0 x1 := by
  unfold out0_2
  refine canon_eq_haar (R := 256) x0 x1 _ _ (fun k => ?_) (fun k => ?_) _ _
  · unfold k0_pay3 k0_pay1 k0_pay2
    simp only [View.ld_unit_zero (S := S256x2048) zero_offsets, shapeCast_self]
    rfl
  · unfold k0_pay4 k0_pay1 k0_pay2
    simp only [View.ld_unit_zero (S := S256x2048) zero_offsets, shapeCast_self]
    rfl

/-! ## From the blocks to the array -/

/-- The even columns and the odd columns as the call finds them. -/
abbrev evens (c : Dev nD) : (Half 8192).Idx → F .f32 := V m c main_v2
abbrev odds (c : Dev nD) : (Half 8192).Idx → F .f32 := V m c main_v4

/-- The three windows move together: at point `t` each is at block row `t`, block column 0. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) < 32 :=
  (by decide +kernel : ∀ t : Fin grid0.N, _)

/-- Every block row is some point's. -/
theorem idx_onto : ∀ q : Fin 32, ∃ t : Fin cfg0.N, win0_2.index t = ![q.val, 0] :=
  (by decide +kernel : ∀ q : Fin 32, ∃ t : Fin grid0.N, win0_2.index t = ![q.val, 0])

/-- What point `t` writes back is its block of the transform of the whole even and odd columns. -/
theorem flushed_eq (c : Dev nD) (t : Fin cfg0.N) :
    (dats m 0 c).flushed 2 t = ((cfg0.win 2).blk t).view.read (Elt F) (haar (R := 8192) (evens m c) (odds m c)) := by
  rw [Value.flushed2, body_eq]
  obtain ⟨e0, e1, e2, e3, e4, e5⟩ := idx_facts t
  funext j
  show haar (R := 256) (iblk m c 0 t) (iblk m c 1 t) j = haar (R := 8192) (evens m c) (odds m c) (((cfg0.win 2).blk t).view.emb j)
  refine haar_rows (R := 8192) (R' := 256) (evens m c) (odds m c) (iblk m c 0 t) (iblk m c 1 t) (win0_2.index t (0 : Fin 2) * 256) ?_ ?_ j _ ?_ ?_
  · intro k k' h0 h1
    show V m c main_v2 (((cfg0.win 0).blk t).view.emb k) = V m c main_v2 k'
    refine congrArg _ (funext fun a => Fin.ext ?_)
    match a with
    | ⟨0, _⟩ => show win0_0.index t (0 : Fin 2) * 256 + 1 * (k 0).val = (k' 0).val; omega
    | ⟨1, _⟩ => show win0_0.index t (1 : Fin 2) * 2048 + 1 * (k 1).val = (k' 1).val; omega
  · intro k k' h0 h1
    show V m c main_v4 (((cfg0.win 1).blk t).view.emb k) = V m c main_v4 k'
    refine congrArg _ (funext fun a => Fin.ext ?_)
    match a with
    | ⟨0, _⟩ => show win0_1.index t (0 : Fin 2) * 256 + 1 * (k 0).val = (k' 0).val; omega
    | ⟨1, _⟩ => show win0_1.index t (1 : Fin 2) * 2048 + 1 * (k 1).val = (k' 1).val; omega
  · show win0_2.index t (0 : Fin 2) * 256 + 1 * (j 0).val = win0_2.index t (0 : Fin 2) * 256 + (j 0).val; omega
  · show win0_2.index t (1 : Fin 2) * 4096 + 1 * (j 1).val = (j 1).val; omega

/-- An index of the array is in point `t`'s block iff each coordinate is in the block's range on its axis. -/
theorem mem_blk (t : Fin cfg0.N) (i : S8192x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v5).slice (win0_2.rect t)).set ↔ _
  rw [View.set_slice_whole, Rect.mem_set_unit]
  exact Iff.rfl

/-- Row `r` of the array is in the block of the point at block row `r / 256`. -/
theorem cover (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- The result array after the run: the transform of the even and odd columns. -/
theorem final (c : Dev nD) : (dats m 0 c).arrAt 2 cfg0.N = haar (R := 8192) (evens m c) (odds m c) :=
  (dats m 0 c).arrAt_eq_of_cover 2 (haar (R := 8192) (evens m c) (odds m c)) (fun t _ => flushed_eq m c t) cover

/-! ## The host operations before the call -/

/-- The call finds, as its first operand, the even columns of the argument, -/
theorem evens_eq (c : Dev nD) : evens m c = pick 0 (m ((c : Thread nD τ).loc main_arg0))
    shapeCasts_S8192x4096_S8192x2048x2 slices_S8192x2048x2_S8192x2048x1_0_0_0 shapeCasts_S8192x2048x1_S8192x2048 := by
  show (V m c main_v2 : S8192x2048.Idx → F .f32) = _
  dsimp only [Gen.V, Gen.hostOps0]
  after_results
  rfl

/-- and as its second the odd columns. -/
theorem odds_eq (c : Dev nD) : odds m c = pick 1 (m ((c : Thread nD τ).loc main_arg0))
    shapeCasts_S8192x4096_S8192x2048x2 slices_S8192x2048x2_S8192x2048x1_0_0_1 shapeCasts_S8192x2048x1_S8192x2048 := by
  show (V m c main_v4 : S8192x2048.Idx → F .f32) = _
  dsimp only [Gen.V, Gen.hostOps0]
  after_results
  rfl

/-! ## The run -/

/-- Every weakly fair execution ends with the result array at the transform of the argument's even and odd columns
    and the argument unchanged. -/
theorem run : θ_run defs (onTc (τ := τ) (main (F := F))) ⟨m, fun _ => 0, ρ⟩ fun r => ∀ c : Dev nD,
      r.2.mem ((c : Thread nD τ).loc main_v5) = haar (R := 8192)
          (pick 0 (m ((c : Thread nD τ).loc main_arg0)) shapeCasts_S8192x4096_S8192x2048x2 slices_S8192x2048x2_S8192x2048x1_0_0_0 shapeCasts_S8192x2048x1_S8192x2048)
          (pick 1 (m ((c : Thread nD τ).loc main_arg0)) shapeCasts_S8192x4096_S8192x2048x2 slices_S8192x2048x2_S8192x2048x1_0_0_1 shapeCasts_S8192x2048x1_S8192x2048)
      ∧ r.2.mem ((c : Thread nD τ).loc main_arg0) = m ((c : Thread nD τ).loc main_arg0) :=
  (θ_run defs _ _).mono (fun r h c => ⟨(h c).1.trans ((final m c).trans (by rw [evens_eq, odds_eq])), (h c).2⟩)
    (Value.run_blocks m ρ)

end Cert.KernelIdeal.Hand

end
-- ==== Proof.RefValue.lean ====
/-
  The reference's result. Its program makes the even and the odd columns of the argument with the same three
  operations the kernel's program uses, forms their sums and their differences, scales each by a broadcast of the
  filter coefficient, and concatenates the two 8192 × 2048 arrays along the columns. That array is the Haar
  transform of the even and odd columns: the concatenation reads the scaled sums in its left 2048 columns and the
  scaled differences in its right 2048.
-/
import proofs.«409918_j14396730376549_3_alg».proof.Proof.Gen.ReferenceIdeal.Run
import proofs.«409918_j14396730376549_3_alg».proof.Proof.HaarSpec

noncomputable section

namespace Cert.ReferenceIdeal.Hand

open Cert.ReferenceIdeal Cert.ReferenceIdeal.Gen Cert.Haar Idealize.ShloMosaic

variable {F : FTy → Type} [FloatOps F]

/-- The term the reference's run ends at, as a function of the argument `x`, is the transform of `x`'s even and odd
    columns. -/
theorem result_eq (x : (⟨S8192x4096, .f32⟩ : BufTy).Contents (Elt F)) :
    concatenate S8192x4096 1 [⟨S8192x2048, (mulf (addf (shapeCast _ (extractStridedSlice S8192x2048x1 ![0, 0, 0] (shapeCast _ x shapeCasts_S8192x4096_S8192x2048x2) slices_S8192x2048x2_S8192x2048x1_0_0_0) shapeCasts_S8192x2048x1_S8192x2048) (shapeCast _ (extractStridedSlice S8192x2048x1 ![0, 0, 1] (shapeCast _ x shapeCasts_S8192x4096_S8192x2048x2) slices_S8192x2048x2_S8192x2048x1_0_0_1) shapeCasts_S8192x2048x1_S8192x2048)) (broadcastInDim S8192x2048 ![] bcast_S_S8192x2048 (constant S_ .f32 0x3F3504F3#32)))⟩, ⟨S8192x2048, (mulf (subf (shapeCast _ (extractStridedSlice S8192x2048x1 ![0, 0, 0] (shapeCast _ x shapeCasts_S8192x4096_S8192x2048x2) slices_S8192x2048x2_S8192x2048x1_0_0_0) shapeCasts_S8192x2048x1_S8192x2048) (shapeCast _ (extractStridedSlice S8192x2048x1 ![0, 0, 1] (shapeCast _ x shapeCasts_S8192x4096_S8192x2048x2) slices_S8192x2048x2_S8192x2048x1_0_0_1) shapeCasts_S8192x2048x1_S8192x2048)) (broadcastInDim S8192x2048 ![] bcast_S_S8192x2048 (constant S_ .f32 0x3F3504F3#32)))⟩] concatenates_S8192x2048_S8192x2048_S8192x4096_d1
      = haar (R := 8192)
          (pick 0 x shapeCasts_S8192x4096_S8192x2048x2 slices_S8192x2048x2_S8192x2048x1_0_0_0 shapeCasts_S8192x2048x1_S8192x2048)
          (pick 1 x shapeCasts_S8192x4096_S8192x2048x2 slices_S8192x2048x2_S8192x2048x1_0_0_1 shapeCasts_S8192x2048x1_S8192x2048) :=
  concat_eq_haar (R := 8192)
    (pick 0 x shapeCasts_S8192x4096_S8192x2048x2 slices_S8192x2048x2_S8192x2048x1_0_0_0 shapeCasts_S8192x2048x1_S8192x2048)
    (pick 1 x shapeCasts_S8192x4096_S8192x2048x2 slices_S8192x2048x2_S8192x2048x1_0_0_1 shapeCasts_S8192x2048x1_S8192x2048)
    _ _ (fun _ => rfl) (fun _ => rfl) concatenates_S8192x2048_S8192x2048_S8192x4096_d1

end Cert.ReferenceIdeal.Hand

end
-- ==== Proof.lean ====
/-
  A one-level Haar wavelet transform of every row of an 8192 × 4096 single-precision matrix, as a pipelined kernel,
  against its array-language reference, over the extended reals.

  Both programs first split the matrix into its even and its odd columns `e`, `o` (8192 × 2048 each) with the same
  three host operations. The reference then forms `(e + o) · s` and `(e − o) · s`, `s` the single-precision number
  nearest 1/√2, and concatenates them along the columns. The kernel walks 32 bands of 256 rows; on each band it
  stores the scaled sums into the left half of the band's output block and the scaled differences into the right
  half, with the same literal `s`. Index by index the two results are the same term of `e` and `o` — no law of
  arithmetic is used, so the finiteness of the input is never opened:
  * Proof/HaarSpec.lean: the transform `haar e o` as one function, and its three readings (two stores into the two
    halves of a buffer; a band of rows; a concatenation along the columns);
  * Proof/KernelValue.lean: the kernel's result array is `haar e o`;
  * Proof/RefValue.lean: the reference's result term is `haar e o`.
  The three frames are the generated ones (the reference's is its generated run with the result dropped); the
  idealization rewrote nothing, so `preserves` has nothing to state.
-/
import proofs.«409918_j14396730376549_3_alg».proof.Defs
import proofs.«409918_j14396730376549_3_alg».proof.Proof.Gen.Kernel
import proofs.«409918_j14396730376549_3_alg».proof.Proof.Gen.Kernel.Frame
import proofs.«409918_j14396730376549_3_alg».proof.Proof.Gen.KernelIdeal
import proofs.«409918_j14396730376549_3_alg».proof.Proof.Gen.KernelIdeal.Frame
import proofs.«409918_j14396730376549_3_alg».proof.Proof.Gen.KernelIdeal.Value
import proofs.«409918_j14396730376549_3_alg».proof.Proof.Gen.ReferenceIdeal
import proofs.«409918_j14396730376549_3_alg».proof.Proof.Gen.ReferenceIdeal.Run
import proofs.«409918_j14396730376549_3_alg».proof.Proof.Gen.Pre_finite_inputs
import proofs.«409918_j14396730376549_3_alg».proof.Proof.KernelValue
import proofs.«409918_j14396730376549_3_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the argument, the kernel's result array and the reference's both end at the Haar
    transform of the argument's even and odd columns. -/
theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.ReferenceIdeal.Hand.result_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
